-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64 .f32) (main_arg5 : FVec F S64x128 .f32) (main_arg6 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x128 .f32) (main_arg6 : FVec F S128 .f32) (main_arg7 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S5000x64 : Shape := ⟨2, ![5000, 64]⟩
abbrev S1100000x64 : Shape := ⟨2, ![1100000, 64]⟩
abbrev S1x64 : Shape := ⟨2, ![1, 64]⟩
abbrev S100000x128 : Shape := ⟨2, ![100000, 128]⟩
abbrev S5000x128 : Shape := ⟨2, ![5000, 128]⟩
abbrev S1100000x128 : Shape := ⟨2, ![1100000, 128]⟩
abbrev S1x128 : Shape := ⟨2, ![1, 128]⟩

abbrev nBuf : Space → Nat
  | .hbm => 105
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S2x1000000, .i32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1100000, .i32⟩
  | .hbm, ⟨70, _⟩ => ⟨S1100000, .i1⟩
  | .hbm, ⟨71, _⟩ => ⟨S_, .i32⟩
  | .hbm, ⟨72, _⟩ => ⟨S1100000, .i32⟩
  | .hbm, ⟨73, _⟩ => ⟨S1100000, .i32⟩
  | .hbm, ⟨74, _⟩ => ⟨S1100000, .i32⟩
  | .hbm, ⟨75, _⟩ => ⟨S1100000x1, .i32⟩
  | .hbm, ⟨76, _⟩ => ⟨S1100000x64, .f32⟩
  | .hbm, ⟨77, _⟩ => ⟨S1100000x1, .f32⟩
  | .hbm, ⟨78, _⟩ => ⟨S1100000x64, .f32⟩
  | .hbm, ⟨79, _⟩ => ⟨S1100000x64, .f32⟩
  | .hbm, ⟨80, _⟩ => ⟨S_, .f32⟩
  | .hbm, ⟨81, _⟩ => ⟨S100000x64, .f32⟩
  | .hbm, ⟨82, _⟩ => ⟨S1100000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x128, .f32⟩
  | .hbm, ⟨87, _⟩ => ⟨S_, .i32⟩
  | .hbm, ⟨88, _⟩ => ⟨S1100000, .i32⟩
  | .hbm, ⟨89, _⟩ => ⟨S1100000, .i1⟩
  | .hbm, ⟨90, _⟩ => ⟨S_, .i32⟩
  | .hbm, ⟨91, _⟩ => ⟨S1100000, .i32⟩
  | .hbm, ⟨92, _⟩ => ⟨S1100000, .i32⟩
  | .hbm, ⟨93, _⟩ => ⟨S1100000, .i32⟩
  | .hbm, ⟨94, _⟩ => ⟨S1100000x1, .i32⟩
  | .hbm, ⟨95, _⟩ => ⟨S1100000x128, .f32⟩
  | .hbm, ⟨96, _⟩ => ⟨S1100000x1, .f32⟩
  | .hbm, ⟨97, _⟩ => ⟨S1100000x128, .f32⟩
  | .hbm, ⟨98, _⟩ => ⟨S1100000x128, .f32⟩
  | .hbm, ⟨99, _⟩ => ⟨S_, .f32⟩
  | .hbm, ⟨100, _⟩ => ⟨S100000x128, .f32⟩
  | .hbm, ⟨101, _⟩ => ⟨S1100000x1, .i32⟩
  | .hbm, ⟨102, _⟩ => ⟨S100000x128, .f32⟩
  | .hbm, ⟨103, _⟩ => ⟨S1x128, .f32⟩
  | .hbm, ⟨104, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x128_S5000x128_1_0_0_1_n_n_wf : DotDims.WF S5000x64 S64x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S100000x128 : Shape := ⟨2, ![100000, 128]⟩
abbrev S1100000x128 : Shape := ⟨2, ![1100000, 128]⟩
abbrev S1x128 : Shape := ⟨2, ![1, 128]⟩

abbrev nBuf : Space → Nat
  | .hbm => 152
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x128, .f32⟩
  | 6 => ⟨S128, .f32⟩
  | 7 => ⟨S2x1000000, .i32⟩
  | 8 => ⟨S100000, .i32⟩
  | 9 => ⟨S1x1000000, .i32⟩
  | 10 => ⟨S1000000, .i32⟩
  | 11 => ⟨S1100000, .i32⟩
  | 12 => ⟨S1x1000000, .i32⟩
  | 13 => ⟨S1000000, .i32⟩
  | 14 => ⟨S1100000, .i32⟩
  | 15 => ⟨S_, .f32⟩
  | 16 => ⟨S1100000, .f32⟩
  | 17 => ⟨S_, .f32⟩
  | 18 => ⟨S100000, .f32⟩
  | 19 => ⟨S1100000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x64, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S_, .i32⟩
  | 50 => ⟨S1100000, .i32⟩
  | 51 => ⟨S1100000, .i1⟩
  | 52 => ⟨S_, .i32⟩
  | 53 => ⟨S1100000, .i32⟩
  | 54 => ⟨S1100000, .i32⟩
  | 55 => ⟨S1100000, .i32⟩
  | 56 => ⟨S1100000x1, .i32⟩
  | 57 => ⟨S1100000x64, .f32⟩
  | 58 => ⟨S1100000x1, .f32⟩
  | 59 => ⟨S1100000x64, .f32⟩
  | 60 => ⟨S1100000x64, .f32⟩
  | 61 => ⟨S_, .f32⟩
  | 62 => ⟨S100000x64, .f32⟩
  | 63 => ⟨S1100000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1100000, .i32⟩
  | 74 => ⟨S1100000, .i1⟩
  | 75 => ⟨S_, .i32⟩
  | 76 => ⟨S1100000, .i32⟩
  | 77 => ⟨S1100000, .i32⟩
  | 78 => ⟨S1100000, .i32⟩
  | 79 => ⟨S1100000x1, .i32⟩
  | 80 => ⟨S1100000, .f32⟩
  | 81 => ⟨S_, .i32⟩
  | 82 => ⟨S1100000, .i32⟩
  | 83 => ⟨S1100000, .i1⟩
  | 84 => ⟨S_, .i32⟩
  | 85 => ⟨S1100000, .i32⟩
  | 86 => ⟨S1100000, .i32⟩
  | 87 => ⟨S1100000, .i32⟩
  | 88 => ⟨S1100000x1, .i32⟩
  | 89 => ⟨S1100000, .f32⟩
  | 90 => ⟨S1100000, .f32⟩
  | 91 => ⟨S_, .i32⟩
  | 92 => ⟨S1100000, .i32⟩
  | 93 => ⟨S1100000, .i1⟩
  | 94 => ⟨S_, .i32⟩
  | 95 => ⟨S1100000, .i32⟩
  | 96 => ⟨S1100000, .i32⟩
  | 97 => ⟨S1100000, .i32⟩
  | 98 => ⟨S1100000x1, .i32⟩
  | 99 => ⟨S1100000x64, .f32⟩
  | 100 => ⟨S1100000x1, .f32⟩
  | 101 => ⟨S1100000x64, .f32⟩
  | 102 => ⟨S1100000x64, .f32⟩
  | 103 => ⟨S_, .f32⟩
  | 104 => ⟨S100000x64, .f32⟩
  | 105 => ⟨S1100000x1, .i32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x128, .f32⟩
  | 114 => ⟨S_, .i32⟩
  | 115 => ⟨S1100000, .i32⟩
  | 116 => ⟨S1100000, .i1⟩
  | 117 => ⟨S_, .i32⟩
  | 118 => ⟨S1100000, .i32⟩
  | 119 => ⟨S1100000, .i32⟩
  | 120 => ⟨S1100000, .i32⟩
  | 121 => ⟨S1100000x1, .i32⟩
  | 122 => ⟨S1100000, .f32⟩
  | 123 => ⟨S_, .i32⟩
  | 124 => ⟨S1100000, .i32⟩
  | 125 => ⟨S1100000, .i1⟩
  | 126 => ⟨S_, .i32⟩
  | 127 => ⟨S1100000, .i32⟩
  | _ => ⟨S100000x64, .f32⟩

abbrev hbmTy0_1 (i : Nat) : BufTy := match i % 128 with
  | 0 => ⟨S1100000, .i32⟩
  | 1 => ⟨S1100000, .i32⟩
  | 2 => ⟨S1100000x1, .i32⟩
  | 3 => ⟨S1100000, .f32⟩
  | 4 => ⟨S1100000, .f32⟩
  | 5 => ⟨S_, .i32⟩
  | 6 => ⟨S1100000, .i32⟩
  | 7 => ⟨S1100000, .i1⟩
  | 8 => ⟨S_, .i32⟩
  | 9 => ⟨S1100000, .i32⟩
  | 10 => ⟨S1100000, .i32⟩
  | 11 => ⟨S1100000, .i32⟩
  | 12 => ⟨S1100000x1, .i32⟩
  | 13 => ⟨S1100000x128, .f32⟩
  | 14 => ⟨S1100000x1, .f32⟩
  | 15 => ⟨S1100000x128, .f32⟩
  | 16 => ⟨S1100000x128, .f32⟩
  | 17 => ⟨S_, .f32⟩
  | 18 => ⟨S100000x128, .f32⟩
  | 19 => ⟨S1100000x1, .i32⟩
  | 20 => ⟨S100000x128, .f32⟩
  | 21 => ⟨S1x128, .f32⟩
  | 22 => ⟨S100000x128, .f32⟩
  | 23 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1100000x1_S1100000_n_0_0_1_wf : ScatterDims.WF S100000 S1100000x1 S1100000 [] [0] [0] 1
  dot_S100000x64_S64x64_S100000x64_1_0_0_1_n_n_wf : DotDims.WF S100000x64 S64x64 S100000x64 [1] [0] [0] [1] [] []
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x128_S100000x128_1_0_0_1_n_n_wf : DotDims.WF S100000x64 S64x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.BodyMath.lean ====
/-
  What each kernel body stores, read at one entry of its block on the extended reals.
  A product body rounds its two operand blocks to bf16 (the identity on extended reals) and multiplies them into a zero
  accumulator: entry (p, q) is the sum over l of x(p, l) · w(l, q).  A bias body adds the one-row bias block, broadcast
  over the rows, to the aggregate's block, and (in the two hidden layers) takes the maximum with zero: entry (p, q) is
  max (a(p, q) + b(0, q)) 0, or a(p, q) + b(0, q) in the last layer.
-/
import proofs.«132712_j53163105190280_1_alg».proof.Proof.Gen.KernelIdeal.Skeleton
import proofs.«132712_j53163105190280_1_alg».proof.Proof.LibMatmulPlain
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The 5000 × 64 by 64 × 64 product contracts the left columns with the right rows. -/
theorem plain64 : Cert.Gcn.IsPlain (M := 5000) (K := 64) (N := 64) dot_S5000x64_S64x64_S5000x64_1_0_0_1_n_n :=
  ⟨rfl, rfl, rfl, rfl, rfl, rfl⟩

/-- The 5000 × 64 by 64 × 128 product contracts the left columns with the right rows. -/
theorem plain128 : Cert.Gcn.IsPlain (M := 5000) (K := 64) (N := 128) dot_S5000x64_S64x128_S5000x128_1_0_0_1_n_n :=
  ⟨rfl, rfl, rfl, rfl, rfl, rfl⟩

/-- First layer's product body at entry (p, q). -/
theorem prod0_apply (x0 : Vec Ideal S5000x64 .f32) (x1 : Vec Ideal S64x64 .f32) (p : Fin 5000) (q : Fin 64) :
    k0_pay1 x0 x1 (ix2 p q) = ∑ l : Fin 64, x0 (ix2 p l) * x1 (ix2 l q) := by
  unfold k0_pay1
  exact Cert.Gcn.matmul_plain_apply _ plain64 none _ _ p q

/-- Second layer's product body at entry (p, q): the cast of the block to its own shape changes nothing. -/
theorem prod2_apply (x0 : Vec Ideal S5000x64 .f32) (x1 : Vec Ideal S64x64 .f32) (p : Fin 5000) (q : Fin 64) :
    k2_pay1 x0 x1 (ix2 p q) = ∑ l : Fin 64, x0 (ix2 p l) * x1 (ix2 l q) := by
  unfold k2_pay1
  simp only [shapeCast_self]
  exact Cert.Gcn.matmul_plain_apply _ plain64 none _ _ p q

/-- Third layer's product body at entry (p, q). -/
theorem prod4_apply (x0 : Vec Ideal S5000x64 .f32) (x1 : Vec Ideal S64x128 .f32) (p : Fin 5000) (q : Fin 128) :
    k4_pay1 x0 x1 (ix2 p q) = ∑ l : Fin 64, x0 (ix2 p l) * x1 (ix2 l q) := by
  unfold k4_pay1
  simp only [shapeCast_self]
  exact Cert.Gcn.matmul_plain_apply _ plain128 none _ _ p q

/-- First layer's bias body at entry (p, q). -/
theorem bias1_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  simp only [shapeCast_self]
  show max (x0 (ix2 p q) + broadcastTo S5000x64 x1 broadcasts_S1x64_S5000x64 (ix2 p q)) _ = _
  rw [broadcastTo_1b_ab_apply]
  rfl

/-- Second layer's bias body at entry (p, q). -/
theorem bias3_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  simp only [shapeCast_self]
  show max (x0 (ix2 p q) + broadcastTo S5000x64 x1 broadcasts_S1x64_S5000x64 (ix2 p q)) _ = _
  rw [broadcastTo_1b_ab_apply]
  rfl

/-- Last layer's bias body at entry (p, q): no maximum. -/
theorem bias5_apply (x0 : Vec Ideal S5000x128 .f32) (x1 : Vec Ideal S1x128 .f32) (p : Fin 5000) (q : Fin 128) :
    k5_pay1 x0 x1 (ix2 p q) = x0 (ix2 p q) + x1 (ix2 (0 : Fin 1) q) := by
  unfold k5_pay1
  simp only [shapeCast_self]
  show x0 (ix2 p q) + broadcastTo S5000x128 x1 broadcasts_S1x128_S5000x128 (ix2 p q) = _
  rw [broadcastTo_1b_ab_apply]

end Cert.KernelIdeal.Body

end
-- ==== Proof.Spec.lean ====
/-
  The three whole-array functions the layers are made of, on the extended reals, and what one block of each is.

  * `prod X W`: the rows-by-columns product, entry (r, c) the sum over l of X(r, l) · W(l, c).
  * `biasRelu A b`: entry (r, c) is max (A(r, c) + b(0, c)) 0, the bias being a one-row array.
  * `biasAdd A b`: entry (r, c) is A(r, c) + b(0, c).

  A grid point works on a block of rows.  If the block's entries are the array's entries at the rows the block
  stands for (an embedding `e` of block indices into array indices that keeps the column and shifts the row), and
  the body's stored value at a block entry is the product (or the biased value) of the blocks, then the stored value
  at a block entry is the whole-array function at the array entry the block entry stands for.
-/
import Idealize.ShloMosaic.Lib.ValueIdx
import Idealize.ShloMosaic.PureOps.Ideal.Laws

noncomputable section

namespace Cert.Gcn

open Idealize.ShloMosaic Idealize.ShloMosaic.ValueIdx

variable {M Mb K N : ℕ}

/-- The rows-by-columns product of two arrays. -/
def prod (X : FVec Ideal ⟨2, ![M, K]⟩ .f32) (W : FVec Ideal ⟨2, ![K, N]⟩ .f32) : FVec Ideal ⟨2, ![M, N]⟩ .f32 :=
  fun i => ∑ l : Fin K, X (ix2 (i 0) l) * W (ix2 l (i 1))

/-- A one-row bias added to every row, then the maximum with zero. -/
def biasRelu (A : FVec Ideal ⟨2, ![M, N]⟩ .f32) (b : FVec Ideal ⟨2, ![1, N]⟩ .f32) : FVec Ideal ⟨2, ![M, N]⟩ .f32 :=
  fun i => max (A i + b (ix2 (0 : Fin 1) (i 1))) (Ideal.ofBits .f32 0x00000000#32)

/-- A one-row bias added to every row. -/
def biasAdd (A : FVec Ideal ⟨2, ![M, N]⟩ .f32) (b : FVec Ideal ⟨2, ![1, N]⟩ .f32) : FVec Ideal ⟨2, ![M, N]⟩ .f32 :=
  fun i => A i + b (ix2 (0 : Fin 1) (i 1))

/-- Two rank-2 indices with equal coordinates are equal. -/
theorem idx2_ext {a b : ℕ} (i j : (⟨2, ![a, b]⟩ : Shape).Idx) (h0 : (i 0).val = (j 0).val) (h1 : (i 1).val = (j 1).val) : i = j :=
  funext fun d => Fin.ext (by
    match d with
    | ⟨0, _⟩ => exact h0
    | ⟨1, _⟩ => exact h1)

/-- A block of rows of the product: if the left block holds the rows of `X` that `e0` names (same column), the right
    block is all of `W`, and the stored value at (p, q) is the sum over l of the blocks' entries, then the stored value
    at a block entry `j` is the product at the array entry `i` in `j`'s column and in the row `e0` gives `j`'s row. -/
theorem prod_block (X : FVec Ideal ⟨2, ![M, K]⟩ .f32) (W : FVec Ideal ⟨2, ![K, N]⟩ .f32)
    (x0 : FVec Ideal ⟨2, ![Mb, K]⟩ .f32) (x1 : FVec Ideal ⟨2, ![K, N]⟩ .f32) (pay : FVec Ideal ⟨2, ![Mb, N]⟩ .f32)
    (hpay : ∀ (p : Fin Mb) (q : Fin N), pay (ix2 p q) = ∑ l : Fin K, x0 (ix2 p l) * x1 (ix2 l q))
    (e0 : (⟨2, ![Mb, K]⟩ : Shape).Idx → (⟨2, ![M, K]⟩ : Shape).Idx) (e1 : (⟨2, ![K, N]⟩ : Shape).Idx → (⟨2, ![K, N]⟩ : Shape).Idx)
    (h0 : ∀ y, x0 y = X (e0 y)) (h1 : ∀ y, x1 y = W (e1 y))
    (row : ℕ → ℕ)
    (he0 : ∀ y, ((e0 y) 0).val = row (y 0).val ∧ ((e0 y) 1).val = (y 1).val)
    (he1 : ∀ y, ((e1 y) 0).val = (y 0).val ∧ ((e1 y) 1).val = (y 1).val)
    (j : (⟨2, ![Mb, N]⟩ : Shape).Idx) (i : (⟨2, ![M, N]⟩ : Shape).Idx)
    (hi0 : (i 0).val = row (j 0).val) (hi1 : (i 1).val = (j 1).val) :
    pay j = prod X W i := by
  obtain ⟨p, q, rfl⟩ : ∃ (p : Fin Mb) (q : Fin N), j = ix2 p q := ⟨j 0, j 1, eq_ix2 j⟩
  rw [hpay]
  unfold prod
  refine Finset.sum_congr rfl fun l _ => ?_
  have a0 : e0 (ix2 p l) = ix2 (i 0) l :=
    idx2_ext _ _ ((he0 (ix2 p l)).1.trans hi0.symm) (he0 (ix2 p l)).2
  have a1 : e1 (ix2 l q) = ix2 l (i 1) :=
    idx2_ext _ _ (he1 (ix2 l q)).1 ((he1 (ix2 l q)).2.trans hi1.symm)
  rw [h0, h1, a0, a1]
  rfl

/-- A block of rows of the biased, clamped aggregate: the aggregate's block holds the entries `e0` names, the bias block
    is the whole one-row bias, the stored value at (p, q) is max (a(p, q) + b(0, q)) 0, and the array entry `i` is the
    one `e0` gives the block entry `j`. -/
theorem biasRelu_block (A : FVec Ideal ⟨2, ![M, N]⟩ .f32) (b : FVec Ideal ⟨2, ![1, N]⟩ .f32)
    (x0 : FVec Ideal ⟨2, ![Mb, N]⟩ .f32) (x1 : FVec Ideal ⟨2, ![1, N]⟩ .f32) (pay : FVec Ideal ⟨2, ![Mb, N]⟩ .f32)
    (hpay : ∀ (p : Fin Mb) (q : Fin N), pay (ix2 p q) = max (x0 (ix2 p q) + x1 (ix2 (0 : Fin 1) q)) (Ideal.ofBits .f32 0x00000000#32))
    (e0 : (⟨2, ![Mb, N]⟩ : Shape).Idx → (⟨2, ![M, N]⟩ : Shape).Idx) (e1 : (⟨2, ![1, N]⟩ : Shape).Idx → (⟨2, ![1, N]⟩ : Shape).Idx)
    (h0 : ∀ y, x0 y = A (e0 y)) (h1 : ∀ y, x1 y = b (e1 y))
    (he0 : ∀ y, ((e0 y) 1).val = (y 1).val)
    (he1 : ∀ y, ((e1 y) 1).val = (y 1).val)
    (j : (⟨2, ![Mb, N]⟩ : Shape).Idx) (i : (⟨2, ![M, N]⟩ : Shape).Idx) (hi : e0 j = i) :
    pay j = biasRelu A b i := by
  obtain ⟨p, q, rfl⟩ : ∃ (p : Fin Mb) (q : Fin N), j = ix2 p q := ⟨j 0, j 1, eq_ix2 j⟩
  rw [hpay]
  unfold biasRelu
  have hq : (i 1).val = q.val := by rw [← hi]; exact he0 (ix2 p q)
  have hu : ((e1 (ix2 (0 : Fin 1) q)) 0).val < 1 := ((e1 (ix2 (0 : Fin 1) q)) 0).isLt
  have a1 : e1 (ix2 (0 : Fin 1) q) = ix2 (0 : Fin 1) (i 1) :=
    idx2_ext _ _ (show ((e1 (ix2 (0 : Fin 1) q)) 0).val = 0 by omega) ((he1 (ix2 (0 : Fin 1) q)).trans hq.symm)
  rw [h0, h1, a1, hi]
  rfl

/-- The same for the last layer, which does not clamp. -/
theorem biasAdd_block (A : FVec Ideal ⟨2, ![M, N]⟩ .f32) (b : FVec Ideal ⟨2, ![1, N]⟩ .f32)
    (x0 : FVec Ideal ⟨2, ![Mb, N]⟩ .f32) (x1 : FVec Ideal ⟨2, ![1, N]⟩ .f32) (pay : FVec Ideal ⟨2, ![Mb, N]⟩ .f32)
    (hpay : ∀ (p : Fin Mb) (q : Fin N), pay (ix2 p q) = x0 (ix2 p q) + x1 (ix2 (0 : Fin 1) q))
    (e0 : (⟨2, ![Mb, N]⟩ : Shape).Idx → (⟨2, ![M, N]⟩ : Shape).Idx) (e1 : (⟨2, ![1, N]⟩ : Shape).Idx → (⟨2, ![1, N]⟩ : Shape).Idx)
    (h0 : ∀ y, x0 y = A (e0 y)) (h1 : ∀ y, x1 y = b (e1 y))
    (he0 : ∀ y, ((e0 y) 1).val = (y 1).val)
    (he1 : ∀ y, ((e1 y) 1).val = (y 1).val)
    (j : (⟨2, ![Mb, N]⟩ : Shape).Idx) (i : (⟨2, ![M, N]⟩ : Shape).Idx) (hi : e0 j = i) :
    pay j = biasAdd A b i := by
  obtain ⟨p, q, rfl⟩ : ∃ (p : Fin Mb) (q : Fin N), j = ix2 p q := ⟨j 0, j 1, eq_ix2 j⟩
  rw [hpay]
  unfold biasAdd
  have hq : (i 1).val = q.val := by rw [← hi]; exact he0 (ix2 p q)
  have hu : ((e1 (ix2 (0 : Fin 1) q)) 0).val < 1 := ((e1 (ix2 (0 : Fin 1) q)) 0).isLt
  have a1 : e1 (ix2 (0 : Fin 1) q) = ix2 (0 : Fin 1) (i 1) :=
    idx2_ext _ _ (show ((e1 (ix2 (0 : Fin 1) q)) 0).val = 0 by omega) ((he1 (ix2 (0 : Fin 1) q)).trans hq.symm)
  rw [h0, h1, a1, hi]
  rfl

end Cert.Gcn

end
-- ==== Proof.Prod0.lean ====
/-
  The first layer's feature transform: the rows-by-columns product, written back in twenty blocks of 5000 rows, is the whole-array product.
  Point t of the grid reads rows 5000·t … 5000·t + 4999 of the left array and all of the right array, and writes back
  the same rows of the result; the twenty row blocks tile the 100000 rows, so after the last write-back the result
  array is the product of the two arrays as the region found them.
-/
import proofs.«132712_j53163105190280_1_alg».proof.Proof.Gen.KernelIdeal.Frame
import proofs.«132712_j53163105190280_1_alg».proof.Proof.BodyMath
import proofs.«132712_j53163105190280_1_alg».proof.Proof.Spec

set_option maxRecDepth 16384

noncomputable section

namespace Cert.KernelIdeal.Prod0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The left array, the right array and the two input blocks at a point, at their literal types. -/
abbrev leftArr (c : Dev nD) : FVec Ideal S100000x64 .f32 := V c main_arg0
abbrev rightArr (c : Dev nD) : FVec Ideal S64x64 .f32 := V c main_arg1
abbrev leftBlk (c : Dev nD) (t : Fin cfg0.N) : FVec Ideal S5000x64 .f32 := iblk0 V c 0 t
abbrev rightBlk (c : Dev nD) (t : Fin cfg0.N) : FVec Ideal S64x64 .f32 := iblk0 V c 1 t

/-- The printed index maps over the grid: the left and the result windows are at row block t, column block 0; the
    right window is always at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem row_block_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the product of the two arrays. -/
theorem flushed_eq (c : Dev nD) (t : Fin cfg0.N) :
    (dat0 V c).flushed 2 t = ((cfg0.win 2).blk t).view.read (Elt Ideal) (Cert.Gcn.prod (leftArr V c) (rightArr V c)) := by
  show (cfg0.win 2).cut (grid0.coords t) ((dat0 V c).after 2 t) = _
  rw [after0_2]
  unfold out0_2
  rw [View.canon_unit_zero origin_zero]
  simp only [View.ld_unit_zero (S := S5000x64) origin_zero, View.ld_unit_zero (S := S64x64) origin_zero]
  obtain ⟨e0, e1, e2, e3, e4, e5⟩ := index_maps t
  funext j
  show k0_pay1 (leftBlk V c t) (rightBlk V c t) j = Cert.Gcn.prod (leftArr V c) (rightArr V c) (((cfg0.win 2).blk t).view.emb j)
  refine Cert.Gcn.prod_block (M := 100000) (Mb := 5000) (K := 64) (N := 64) (leftArr V c) (rightArr V c) (leftBlk V c t) (rightBlk V c t)
    (k0_pay1 (leftBlk V c t) (rightBlk V c t)) (Body.prod0_apply (leftBlk V c t) (rightBlk V c t))
    (fun y => ((cfg0.win 0).blk t).view.emb y) (fun y => ((cfg0.win 1).blk t).view.emb y)
    (fun y => rfl) (fun y => rfl) (fun r => t.val * 5000 + r) ?_ ?_ j (((cfg0.win 2).blk t).view.emb j) ?_ ?_
  · intro y
    constructor
    · show win0_0.index t (0 : Fin 2) * 5000 + 1 * (y 0).val = t.val * 5000 + (y 0).val
      omega
    · show win0_0.index t (1 : Fin 2) * 64 + 1 * (y 1).val = (y 1).val
      omega
  · intro y
    constructor
    · show win0_1.index t (0 : Fin 2) * 64 + 1 * (y 0).val = (y 0).val
      omega
    · show win0_1.index t (1 : Fin 2) * 64 + 1 * (y 1).val = (y 1).val
      omega
  · show win0_2.index t (0 : Fin 2) * 5000 + 1 * (j 0).val = t.val * 5000 + (j 0).val
    omega
  · show win0_2.index t (1 : Fin 2) * 64 + 1 * (j 1).val = (j 1).val
    omega

/-- An index of the result array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every entry of the result array is in the block of the point its row block names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array is the product of the two arrays as the region found them. -/
theorem final (c : Dev nD) : (dat0 V c).arrAt 2 cfg0.N = Cert.Gcn.prod (leftArr V c) (rightArr V c) :=
  (dat0 V c).arrAt_eq_of_cover 2 (Cert.Gcn.prod (leftArr V c) (rightArr V c)) (fun t _ => flushed_eq V c t) cover

end Cert.KernelIdeal.Prod0

end
-- ==== Proof.Prod2.lean ====
/-
  The second layer's feature transform: the rows-by-columns product, written back in twenty blocks of 5000 rows, is the whole-array product.
  Point t of the grid reads rows 5000·t … 5000·t + 4999 of the left array and all of the right array, and writes back
  the same rows of the result; the twenty row blocks tile the 100000 rows, so after the last write-back the result
  array is the product of the two arrays as the region found them.
-/
import proofs.«132712_j53163105190280_1_alg».proof.Proof.Gen.KernelIdeal.Frame
import proofs.«132712_j53163105190280_1_alg».proof.Proof.BodyMath
import proofs.«132712_j53163105190280_1_alg».proof.Proof.Spec

set_option maxRecDepth 16384

noncomputable section

namespace Cert.KernelIdeal.Prod2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The left array, the right array and the two input blocks at a point, at their literal types. -/
abbrev leftArr (c : Dev nD) : FVec Ideal S100000x64 .f32 := V c main_v45
abbrev rightArr (c : Dev nD) : FVec Ideal S64x64 .f32 := V c main_arg3
abbrev leftBlk (c : Dev nD) (t : Fin cfg2.N) : FVec Ideal S5000x64 .f32 := iblk2 V c 0 t
abbrev rightBlk (c : Dev nD) (t : Fin cfg2.N) : FVec Ideal S64x64 .f32 := iblk2 V c 1 t

/-- The printed index maps over the grid: the left and the result windows are at row block t, column block 0; the
    right window is always at block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem row_block_onto : ∀ q0 : Fin 20, ∃ t : Fin cfg2.N, win2_2.index t = ![q0.val, 0] :=
  (by decide +kernel : ∀ q0 : Fin 20, ∃ t : Fin grid2.N, win2_2.index t = ![q0.val, 0])

/-- What point t writes back is block t of the product of the two arrays. -/
theorem flushed_eq (c : Dev nD) (t : Fin cfg2.N) :
    (dat2 V c).flushed 2 t = ((cfg2.win 2).blk t).view.read (Elt Ideal) (Cert.Gcn.prod (leftArr V c) (rightArr V c)) := by
  show (cfg2.win 2).cut (grid2.coords t) ((dat2 V c).after 2 t) = _
  rw [after2_2]
  unfold out2_2
  rw [View.canon_unit_zero origin_zero]
  simp only [View.ld_unit_zero (S := S5000x64) origin_zero, View.ld_unit_zero (S := S64x64) origin_zero]
  obtain ⟨e0, e1, e2, e3, e4, e5⟩ := index_maps t
  funext j
  show k2_pay1 (leftBlk V c t) (rightBlk V c t) j = Cert.Gcn.prod (leftArr V c) (rightArr V c) (((cfg2.win 2).blk t).view.emb j)
  refine Cert.Gcn.prod_block (M := 100000) (Mb := 5000) (K := 64) (N := 64) (leftArr V c) (rightArr V c) (leftBlk V c t) (rightBlk V c t)
    (k2_pay1 (leftBlk V c t) (rightBlk V c t)) (Body.prod2_apply (leftBlk V c t) (rightBlk V c t))
    (fun y => ((cfg2.win 0).blk t).view.emb y) (fun y => ((cfg2.win 1).blk t).view.emb y)
    (fun y => rfl) (fun y => rfl) (fun r => t.val * 5000 + r) ?_ ?_ j (((cfg2.win 2).blk t).view.emb j) ?_ ?_
  · intro y
    constructor
    · show win2_0.index t (0 : Fin 2) * 5000 + 1 * (y 0).val = t.val * 5000 + (y 0).val
      omega
    · show win2_0.index t (1 : Fin 2) * 64 + 1 * (y 1).val = (y 1).val
      omega
  · intro y
    constructor
    · show win2_1.index t (0 : Fin 2) * 64 + 1 * (y 0).val = (y 0).val
      omega
    · show win2_1.index t (1 : Fin 2) * 64 + 1 * (y 1).val = (y 1).val
      omega
  · show win2_2.index t (0 : Fin 2) * 5000 + 1 * (j 0).val = t.val * 5000 + (j 0).val
    omega
  · show win2_2.index t (1 : Fin 2) * 64 + 1 * (j 1).val = (j 1).val
    omega

/-- An index of the result array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every entry of the result array is in the block of the point its row block names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := row_block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the result array is the product of the two arrays as the region found them. -/
theorem final (c : Dev nD) : (dat2 V c).arrAt 2 cfg2.N = Cert.Gcn.prod (leftArr V c) (rightArr V c) :=
  (dat2 V c).arrAt_eq_of_cover 2 (Cert.Gcn.prod (leftArr V c) (rightArr V c)) (fun t _ => flushed_eq V c t) cover

end Cert.KernelIdeal.Prod2

end
-- ==== Proof.Prod4.lean ====
/-
  The third layer's feature transform: the rows-by-columns product, written back in twenty blocks of 5000 rows, is the whole-array product.
  Point t of the grid reads rows 5000·t … 5000·t + 4999 of the left array and all of the right array, and writes back
  the same rows of the result; the twenty row blocks tile the 100000 rows, so after the last write-back the result
  array is the product of the two arrays as the region found them.
-/
import proofs.«132712_j53163105190280_1_alg».proof.Proof.Gen.KernelIdeal.Frame
import proofs.«132712_j53163105190280_1_alg».proof.Proof.BodyMath
import proofs.«132712_j53163105190280_1_alg».proof.Proof.Spec

set_option maxRecDepth 16384

noncomputable section

namespace Cert.KernelIdeal.Prod4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The left array, the right array and the two input blocks at a point, at their literal types. -/
abbrev leftArr (c : Dev nD) : FVec Ideal S100000x64 .f32 := V c main_v61
abbrev rightArr (c : Dev nD) : FVec Ideal S64x128 .f32 := V c main_arg5
abbrev leftBlk (c : Dev nD) (t : Fin cfg4.N) : FVec Ideal S5000x64 .f32 := iblk4 V c 0 t
abbrev rightBlk (c : Dev nD) (t : Fin cfg4.N) : FVec Ideal S64x128 .f32 := iblk4 V c 1 t

/-- The printed index maps over the grid: the left and the result windows are at row block t, column block 0; the
    right window is always at block (0, 0). -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem row_block_onto : ∀ q0 : Fin 20, ∃ t : Fin cfg4.N, win4_2.index t = ![q0.val, 0] :=
  (by decide +kernel : ∀ q0 : Fin 20, ∃ t : Fin grid4.N, win4_2.index t = ![q0.val, 0])

/-- What point t writes back is block t of the product of the two arrays. -/
theorem flushed_eq (c : Dev nD) (t : Fin cfg4.N) :
    (dat4 V c).flushed 2 t = ((cfg4.win 2).blk t).view.read (Elt Ideal) (Cert.Gcn.prod (leftArr V c) (rightArr V c)) := by
  show (cfg4.win 2).cut (grid4.coords t) ((dat4 V c).after 2 t) = _
  rw [after4_2]
  unfold out4_2
  rw [View.canon_unit_zero origin_zero]
  simp only [View.ld_unit_zero (S := S5000x64) origin_zero, View.ld_unit_zero (S := S64x128) origin_zero]
  obtain ⟨e0, e1, e2, e3, e4, e5⟩ := index_maps t
  funext j
  show k4_pay1 (leftBlk V c t) (rightBlk V c t) j = Cert.Gcn.prod (leftArr V c) (rightArr V c) (((cfg4.win 2).blk t).view.emb j)
  refine Cert.Gcn.prod_block (M := 100000) (Mb := 5000) (K := 64) (N := 128) (leftArr V c) (rightArr V c) (leftBlk V c t) (rightBlk V c t)
    (k4_pay1 (leftBlk V c t) (rightBlk V c t)) (Body.prod4_apply (leftBlk V c t) (rightBlk V c t))
    (fun y => ((cfg4.win 0).blk t).view.emb y) (fun y => ((cfg4.win 1).blk t).view.emb y)
    (fun y => rfl) (fun y => rfl) (fun r => t.val * 5000 + r) ?_ ?_ j (((cfg4.win 2).blk t).view.emb j) ?_ ?_
  · intro y
    constructor
    · show win4_0.index t (0 : Fin 2) * 5000 + 1 * (y 0).val = t.val * 5000 + (y 0).val
      omega
    · show win4_0.index t (1 : Fin 2) * 64 + 1 * (y 1).val = (y 1).val
      omega
  · intro y
    constructor
    · show win4_1.index t (0 : Fin 2) * 64 + 1 * (y 0).val = (y 0).val
      omega
    · show win4_1.index t (1 : Fin 2) * 128 + 1 * (y 1).val = (y 1).val
      omega
  · show win4_2.index t (0 : Fin 2) * 5000 + 1 * (j 0).val = t.val * 5000 + (j 0).val
    omega
  · show win4_2.index t (1 : Fin 2) * 128 + 1 * (j 1).val = (j 1).val
    omega

/-- An index of the result array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Every entry of the result array is in the block of the point its row block names. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := row_block_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the region the result array is the product of the two arrays as the region found them. -/
theorem final (c : Dev nD) : (dat4 V c).arrAt 2 cfg4.N = Cert.Gcn.prod (leftArr V c) (rightArr V c) :=
  (dat4 V c).arrAt_eq_of_cover 2 (Cert.Gcn.prod (leftArr V c) (rightArr V c)) (fun t _ => flushed_eq V c t) cover

end Cert.KernelIdeal.Prod4

end
-- ==== Proof.Bias1.lean ====
/-
  The first layer's bias and clamp: written back in twenty blocks of 5000 rows, it is the whole-array biased, clamped
  aggregate.  Point t of the grid reads rows 5000·t … 5000·t + 4999 of the aggregate and the whole one-row bias, and
  writes back the same rows of the result, each entry max (a(r, c) + b(0, c)) 0; the twenty row blocks tile the 100000
  rows, so after the last write-back the result array is that function of the two arrays as the region found them.
-/
import proofs.«132712_j53163105190280_1_alg».proof.Proof.Gen.KernelIdeal.Frame
import proofs.«132712_j53163105190280_1_alg».proof.Proof.BodyMath
import proofs.«132712_j53163105190280_1_alg».proof.Proof.Spec

set_option maxRecDepth 16384

noncomputable section

namespace Cert.KernelIdeal.Bias1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The aggregate, the one-row bias and the two input blocks at a point, at their literal types. -/
abbrev aggArr (c : Dev nD) : FVec Ideal S100000x64 .f32 := V c main_v43
abbrev biasArr (c : Dev nD) : FVec Ideal S1x64 .f32 := V c main_v44
abbrev aggBlk (c : Dev nD) (t : Fin cfg1.N) : FVec Ideal S5000x64 .f32 := iblk1 V c 0 t
abbrev biasBlk (c : Dev nD) (t : Fin cfg1.N) : FVec Ideal S1x64 .f32 := iblk1 V c 1 t

/-- The printed index maps over the grid: the aggregate's and the result's windows are at row block t, column block 0;
    the bias window is always at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem row_block_onto : ∀ q0 : Fin 20, ∃ t : Fin cfg1.N, win1_2.index t = ![q0.val, 0] :=
  (by decide +kernel : ∀ q0 : Fin 20, ∃ t : Fin grid1.N, win1_2.index t = ![q0.val, 0])

/-- What point t writes back is block t of the biased, clamped aggregate. -/
theorem flushed_eq (c : Dev nD) (t : Fin cfg1.N) :
    (dat1 V c).flushed 2 t = ((cfg1.win 2).blk t).view.read (Elt Ideal) (Cert.Gcn.biasRelu (aggArr V c) (biasArr V c)) := by
  show (cfg1.win 2).cut (grid1.coords t) ((dat1 V c).after 2 t) = _
  rw [after1_2]
  unfold out1_2
  rw [View.canon_unit_zero origin_zero]
  simp only [View.ld_unit_zero (S := S5000x64) origin_zero, View.ld_unit_zero (S := S1x64) origin_zero]
  obtain ⟨e0, e1, e2, e3, e4, e5⟩ := index_maps t
  funext j
  show k1_pay1 (aggBlk V c t) (biasBlk V c t) j = Cert.Gcn.biasRelu (aggArr V c) (biasArr V c) (((cfg1.win 2).blk t).view.emb j)
  refine Cert.Gcn.biasRelu_block (M := 100000) (Mb := 5000) (N := 64) (aggArr V c) (biasArr V c) (aggBlk V c t) (biasBlk V c t)
    (k1_pay1 (aggBlk V c t) (biasBlk V c t)) (Body.bias1_apply (aggBlk V c t) (biasBlk V c t))
    (fun y => ((cfg1.win 0).blk t).view.emb y) (fun y => ((cfg1.win 1).blk t).view.emb y)
    (fun y => rfl) (fun y => rfl) ?_ ?_ j (((cfg1.win 2).blk t).view.emb j) ?_
  · intro y
    show win1_0.index t (1 : Fin 2) * 64 + 1 * (y 1).val = (y 1).val
    omega
  · intro y
    show win1_1.index t (1 : Fin 2) * 64 + 1 * (y 1).val = (y 1).val
    omega
  · refine Cert.Gcn.idx2_ext _ _ ?_ ?_
    · show win1_0.index t (0 : Fin 2) * 5000 + 1 * (j 0).val = win1_2.index t (0 : Fin 2) * 5000 + 1 * (j 0).val
      omega
    · show win1_0.index t (1 : Fin 2) * 64 + 1 * (j 1).val = win1_2.index t (1 : Fin 2) * 64 + 1 * (j 1).val
      omega

/-- An index of the result array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every entry of the result array is in the block of the point its row block names. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := row_block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the result array is the biased, clamped aggregate of the two arrays as the region found them. -/
theorem final (c : Dev nD) : (dat1 V c).arrAt 2 cfg1.N = Cert.Gcn.biasRelu (aggArr V c) (biasArr V c) :=
  (dat1 V c).arrAt_eq_of_cover 2 (Cert.Gcn.biasRelu (aggArr V c) (biasArr V c)) (fun t _ => flushed_eq V c t) cover

end Cert.KernelIdeal.Bias1

end
-- ==== Proof.Bias3.lean ====
/-
  The second layer's bias and clamp: written back in twenty blocks of 5000 rows, it is the whole-array biased, clamped
  aggregate.  Point t of the grid reads rows 5000·t … 5000·t + 4999 of the aggregate and the whole one-row bias, and
  writes back the same rows of the result, each entry max (a(r, c) + b(0, c)) 0; the twenty row blocks tile the 100000
  rows, so after the last write-back the result array is that function of the two arrays as the region found them.
-/
import proofs.«132712_j53163105190280_1_alg».proof.Proof.Gen.KernelIdeal.Frame
import proofs.«132712_j53163105190280_1_alg».proof.Proof.BodyMath
import proofs.«132712_j53163105190280_1_alg».proof.Proof.Spec

set_option maxRecDepth 16384

noncomputable section

namespace Cert.KernelIdeal.Bias3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The aggregate, the one-row bias and the two input blocks at a point, at their literal types. -/
abbrev aggArr (c : Dev nD) : FVec Ideal S100000x64 .f32 := V c main_v59
abbrev biasArr (c : Dev nD) : FVec Ideal S1x64 .f32 := V c main_v60
abbrev aggBlk (c : Dev nD) (t : Fin cfg3.N) : FVec Ideal S5000x64 .f32 := iblk3 V c 0 t
abbrev biasBlk (c : Dev nD) (t : Fin cfg3.N) : FVec Ideal S1x64 .f32 := iblk3 V c 1 t

/-- The printed index maps over the grid: the aggregate's and the result's windows are at row block t, column block 0;
    the bias window is always at block (0, 0). -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem row_block_onto : ∀ q0 : Fin 20, ∃ t : Fin cfg3.N, win3_2.index t = ![q0.val, 0] :=
  (by decide +kernel : ∀ q0 : Fin 20, ∃ t : Fin grid3.N, win3_2.index t = ![q0.val, 0])

/-- What point t writes back is block t of the biased, clamped aggregate. -/
theorem flushed_eq (c : Dev nD) (t : Fin cfg3.N) :
    (dat3 V c).flushed 2 t = ((cfg3.win 2).blk t).view.read (Elt Ideal) (Cert.Gcn.biasRelu (aggArr V c) (biasArr V c)) := by
  show (cfg3.win 2).cut (grid3.coords t) ((dat3 V c).after 2 t) = _
  rw [after3_2]
  unfold out3_2
  rw [View.canon_unit_zero origin_zero]
  simp only [View.ld_unit_zero (S := S5000x64) origin_zero, View.ld_unit_zero (S := S1x64) origin_zero]
  obtain ⟨e0, e1, e2, e3, e4, e5⟩ := index_maps t
  funext j
  show k3_pay1 (aggBlk V c t) (biasBlk V c t) j = Cert.Gcn.biasRelu (aggArr V c) (biasArr V c) (((cfg3.win 2).blk t).view.emb j)
  refine Cert.Gcn.biasRelu_block (M := 100000) (Mb := 5000) (N := 64) (aggArr V c) (biasArr V c) (aggBlk V c t) (biasBlk V c t)
    (k3_pay1 (aggBlk V c t) (biasBlk V c t)) (Body.bias3_apply (aggBlk V c t) (biasBlk V c t))
    (fun y => ((cfg3.win 0).blk t).view.emb y) (fun y => ((cfg3.win 1).blk t).view.emb y)
    (fun y => rfl) (fun y => rfl) ?_ ?_ j (((cfg3.win 2).blk t).view.emb j) ?_
  · intro y
    show win3_0.index t (1 : Fin 2) * 64 + 1 * (y 1).val = (y 1).val
    omega
  · intro y
    show win3_1.index t (1 : Fin 2) * 64 + 1 * (y 1).val = (y 1).val
    omega
  · refine Cert.Gcn.idx2_ext _ _ ?_ ?_
    · show win3_0.index t (0 : Fin 2) * 5000 + 1 * (j 0).val = win3_2.index t (0 : Fin 2) * 5000 + 1 * (j 0).val
      omega
    · show win3_0.index t (1 : Fin 2) * 64 + 1 * (j 1).val = win3_2.index t (1 : Fin 2) * 64 + 1 * (j 1).val
      omega

/-- An index of the result array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Every entry of the result array is in the block of the point its row block names. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := row_block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the result array is the biased, clamped aggregate of the two arrays as the region found them. -/
theorem final (c : Dev nD) : (dat3 V c).arrAt 2 cfg3.N = Cert.Gcn.biasRelu (aggArr V c) (biasArr V c) :=
  (dat3 V c).arrAt_eq_of_cover 2 (Cert.Gcn.biasRelu (aggArr V c) (biasArr V c)) (fun t _ => flushed_eq V c t) cover

end Cert.KernelIdeal.Bias3

end
-- ==== Proof.Bias5.lean ====
/-
  The third layer's bias: written back in twenty blocks of 5000 rows, it is the whole-array biased
  aggregate.  Point t of the grid reads rows 5000·t … 5000·t + 4999 of the aggregate and the whole one-row bias, and
  writes back the same rows of the result, each entry a(r, c) + b(0, c); the twenty row blocks tile the 100000
  rows, so after the last write-back the result array is that function of the two arrays as the region found them.
-/
import proofs.«132712_j53163105190280_1_alg».proof.Proof.Gen.KernelIdeal.Frame
import proofs.«132712_j53163105190280_1_alg».proof.Proof.BodyMath
import proofs.«132712_j53163105190280_1_alg».proof.Proof.Spec

set_option maxRecDepth 16384

noncomputable section

namespace Cert.KernelIdeal.Bias5

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The aggregate, the one-row bias and the two input blocks at a point, at their literal types. -/
abbrev aggArr (c : Dev nD) : FVec Ideal S100000x128 .f32 := V c main_v75
abbrev biasArr (c : Dev nD) : FVec Ideal S1x128 .f32 := V c main_v76
abbrev aggBlk (c : Dev nD) (t : Fin cfg5.N) : FVec Ideal S5000x128 .f32 := iblk5 V c 0 t
abbrev biasBlk (c : Dev nD) (t : Fin cfg5.N) : FVec Ideal S1x128 .f32 := iblk5 V c 1 t

/-- The printed index maps over the grid: the aggregate's and the result's windows are at row block t, column block 0;
    the bias window is always at block (0, 0). -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every row block is some point's. -/
theorem row_block_onto : ∀ q0 : Fin 20, ∃ t : Fin cfg5.N, win5_2.index t = ![q0.val, 0] :=
  (by decide +kernel : ∀ q0 : Fin 20, ∃ t : Fin grid5.N, win5_2.index t = ![q0.val, 0])

/-- What point t writes back is block t of the biased aggregate. -/
theorem flushed_eq (c : Dev nD) (t : Fin cfg5.N) :
    (dat5 V c).flushed 2 t = ((cfg5.win 2).blk t).view.read (Elt Ideal) (Cert.Gcn.biasAdd (aggArr V c) (biasArr V c)) := by
  show (cfg5.win 2).cut (grid5.coords t) ((dat5 V c).after 2 t) = _
  rw [after5_2]
  unfold out5_2
  rw [View.canon_unit_zero origin_zero]
  simp only [View.ld_unit_zero (S := S5000x128) origin_zero, View.ld_unit_zero (S := S1x128) origin_zero]
  obtain ⟨e0, e1, e2, e3, e4, e5⟩ := index_maps t
  funext j
  show k5_pay1 (aggBlk V c t) (biasBlk V c t) j = Cert.Gcn.biasAdd (aggArr V c) (biasArr V c) (((cfg5.win 2).blk t).view.emb j)
  refine Cert.Gcn.biasAdd_block (M := 100000) (Mb := 5000) (N := 128) (aggArr V c) (biasArr V c) (aggBlk V c t) (biasBlk V c t)
    (k5_pay1 (aggBlk V c t) (biasBlk V c t)) (Body.bias5_apply (aggBlk V c t) (biasBlk V c t))
    (fun y => ((cfg5.win 0).blk t).view.emb y) (fun y => ((cfg5.win 1).blk t).view.emb y)
    (fun y => rfl) (fun y => rfl) ?_ ?_ j (((cfg5.win 2).blk t).view.emb j) ?_
  · intro y
    show win5_0.index t (1 : Fin 2) * 128 + 1 * (y 1).val = (y 1).val
    omega
  · intro y
    show win5_1.index t (1 : Fin 2) * 128 + 1 * (y 1).val = (y 1).val
    omega
  · refine Cert.Gcn.idx2_ext _ _ ?_ ?_
    · show win5_0.index t (0 : Fin 2) * 5000 + 1 * (j 0).val = win5_2.index t (0 : Fin 2) * 5000 + 1 * (j 0).val
      omega
    · show win5_0.index t (1 : Fin 2) * 128 + 1 * (j 1).val = win5_2.index t (1 : Fin 2) * 128 + 1 * (j 1).val
      omega

/-- An index of the result array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- Every entry of the result array is in the block of the point its row block names. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := row_block_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region the result array is the biased aggregate of the two arrays as the region found them. -/
theorem final (c : Dev nD) : (dat5 V c).arrAt 2 cfg5.N = Cert.Gcn.biasAdd (aggArr V c) (biasArr V c) :=
  (dat5 V c).arrAt_eq_of_cover 2 (Cert.Gcn.biasAdd (aggArr V c) (biasArr V c)) (fun t _ => flushed_eq V c t) cover

end Cert.KernelIdeal.Bias5

end
-- ==== Proof.HostStretch.lean ====
/-
  The kernel program's host stretches, read at the buffers the regions and the later stretches take, as the
  reference's own stages of the same arguments.

  Both programs build the edge lists with self loops, the degrees, their inverse square roots and the per-edge
  normalisation from the edge index by the same operations; and each layer gathers the transformed rows at the
  sources, scales them by the normalisation and sums them at the destinations, again by the same operations.  So a
  stretch's result, computed from buffers that hold the reference's stages, is the reference's next stage: the two
  terms are the same operations of the same operands, and the equations hold for any float family.  (The reference
  computes the normalisation again in each layer, from the same operands: the three are one function of the edge
  index.)
-/
import proofs.«132712_j53163105190280_1_alg».proof.Proof.Gen.KernelIdeal.Launch
import proofs.«132712_j53163105190280_1_alg».proof.Proof.RefRead
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]
variable (Wv : Valuation τ sig (Elt F))

/-! ## Before the first region: the edge lists and the normalisation, from the edge index -/

set_option maxHeartbeats 4000000 in
/-- The sources with self loops. -/
theorem sources :
    StableHlo.after hostOps0_2 (StableHlo.after hostOps0_1 (StableHlo.after hostOps0 Wv)) (Proc.devRef .tc main_v3)
      = val_main_v3 (F := F) (Wv (Proc.devRef .tc main_arg7)) := by
  after_results
  rfl

set_option maxHeartbeats 4000000 in
/-- The destinations with self loops. -/
theorem destinations :
    StableHlo.after hostOps0_2 (StableHlo.after hostOps0_1 (StableHlo.after hostOps0 Wv)) (Proc.devRef .tc main_v6)
      = val_main_v6 (F := F) (Wv (Proc.devRef .tc main_arg7)) := by
  after_results
  rfl

set_option maxHeartbeats 16000000 in
/-- The per-edge normalisation. -/
theorem normalisation :
    StableHlo.after hostOps0_2 (StableHlo.after hostOps0_1 (StableHlo.after hostOps0 Wv)) (Proc.devRef .tc main_v29)
      = val_main_v30 (F := F) (Wv (Proc.devRef .tc main_arg7)) := by
  after_results
  rfl

/-! ## After a transform: the layer's aggregate, and its bias laid out as one row -/

section
variable (x0 : (⟨Cert.ReferenceIdeal.S100000x64, .f32⟩ : BufTy).Contents (Elt F)) (x1 : (⟨Cert.ReferenceIdeal.S64x64, .f32⟩ : BufTy).Contents (Elt F)) (x2 : (⟨Cert.ReferenceIdeal.S64, .f32⟩ : BufTy).Contents (Elt F))
  (x3 : (⟨Cert.ReferenceIdeal.S64x64, .f32⟩ : BufTy).Contents (Elt F)) (x4 : (⟨Cert.ReferenceIdeal.S64, .f32⟩ : BufTy).Contents (Elt F)) (x5 : (⟨Cert.ReferenceIdeal.S64x128, .f32⟩ : BufTy).Contents (Elt F))
  (x7 : (⟨Cert.ReferenceIdeal.S2x1000000, .i32⟩ : BufTy).Contents (Elt F))

set_option maxHeartbeats 8000000 in
/-- First layer: the transformed rows gathered at the sources, scaled, summed at the destinations. -/
theorem aggregate1
    (h3 : Wv (Proc.devRef .tc main_v3) = val_main_v3 (F := F) x7) (h6 : Wv (Proc.devRef .tc main_v6) = val_main_v6 (F := F) x7)
    (h29 : Wv (Proc.devRef .tc main_v29) = val_main_v30 (F := F) x7)
    (hY : Wv (Proc.devRef .tc main_v30) = val_main_v15 (F := F) x0 x1) :
    StableHlo.after hostOps1 Wv (Proc.devRef .tc main_v43) = val_main_v43 (F := F) x0 x1 x7 := by
  after_results
  rw [h3, h6, h29, hY]
  rfl

set_option maxHeartbeats 4000000 in
/-- First layer's bias as one row. -/
theorem biasRow1 :
    StableHlo.after hostOps1 Wv (Proc.devRef .tc main_v44) = shapeCast S1x64 (Wv (Proc.devRef .tc main_arg2)) shapeCasts_S64_S1x64 := by
  after_results <;> rfl

set_option maxHeartbeats 8000000 in
/-- Second layer's aggregate. -/
theorem aggregate2
    (h3 : Wv (Proc.devRef .tc main_v3) = val_main_v3 (F := F) x7) (h6 : Wv (Proc.devRef .tc main_v6) = val_main_v6 (F := F) x7)
    (h29 : Wv (Proc.devRef .tc main_v29) = val_main_v30 (F := F) x7)
    (hY : Wv (Proc.devRef .tc main_v46) = val_main_v48 (F := F) x0 x1 x2 x3 x7) :
    StableHlo.after hostOps3 Wv (Proc.devRef .tc main_v59) = val_main_v76 (F := F) x0 x1 x2 x3 x7 := by
  after_results
  rw [h3, h6, h29, hY]
  rfl

set_option maxHeartbeats 4000000 in
/-- Second layer's bias as one row. -/
theorem biasRow2 :
    StableHlo.after hostOps3 Wv (Proc.devRef .tc main_v60) = shapeCast S1x64 (Wv (Proc.devRef .tc main_arg4)) shapeCasts_S64_S1x64 := by
  after_results <;> rfl

set_option maxHeartbeats 8000000 in
/-- Third layer's aggregate. -/
theorem aggregate3
    (h3 : Wv (Proc.devRef .tc main_v3) = val_main_v3 (F := F) x7) (h6 : Wv (Proc.devRef .tc main_v6) = val_main_v6 (F := F) x7)
    (h29 : Wv (Proc.devRef .tc main_v29) = val_main_v30 (F := F) x7)
    (hY : Wv (Proc.devRef .tc main_v62) = val_main_v81 (F := F) x0 x1 x2 x3 x4 x5 x7) :
    StableHlo.after hostOps5 Wv (Proc.devRef .tc main_v75) = val_main_v109 (F := F) x0 x1 x2 x3 x4 x5 x7 := by
  after_results
  rw [h3, h6, h29, hY]
  rfl

set_option maxHeartbeats 4000000 in
/-- Third layer's bias as one row. -/
theorem biasRow3 :
    StableHlo.after hostOps5 Wv (Proc.devRef .tc main_v76) = shapeCast S1x128 (Wv (Proc.devRef .tc main_arg6)) shapeCasts_S128_S1x128 := by
  after_results <;> rfl

end

end Cert.KernelIdeal.Stretch

end
-- ==== Proof.HostKeep.lean ====
/-
  A buffer that no operation of a host stretch writes holds after the stretch what it held before.  Each stretch's
  operations write one buffer each; listing those buffers once per stretch, any reference outside the list is kept.
-/
import proofs.«132712_j53163105190280_1_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]
variable (Wv : Valuation τ sig (Elt F))

/-! ## What each stretch writes, and so what it leaves alone -/

/-- The references the operations before the first region write. -/
abbrev written0 : List (Ref sig .tc) :=
  [main_v0, main_v1, main_v2, main_v3, main_v4, main_v5, main_v6, main_cst, main_v7, main_cst_0, main_v8, main_v9, main_v10,
   main_cst_1, main_v11, main_v12, main_v13, main_cst_2, main_call0_v0, main_call0_v1, main_v14, main_c, main_v15, main_v16,
   main_c_3, main_v17, main_v18, main_v19, main_v20, main_v21, main_c_4, main_v22, main_v23, main_c_5, main_v24, main_v25,
   main_v26, main_v27, main_v28, main_v29]
/-- The references the stretch after the first region writes. -/
abbrev written1 : List (Ref sig .tc) :=
  [main_c_6, main_v31, main_v32, main_c_7, main_v33, main_v34, main_v35, main_v36, main_v37, main_v38, main_v39, main_v40,
   main_cst_8, main_v41, main_v42, main_v43, main_v44]
/-- The references the stretch after the third region writes. -/
abbrev written3 : List (Ref sig .tc) :=
  [main_c_9, main_v47, main_v48, main_c_10, main_v49, main_v50, main_v51, main_v52, main_v53, main_v54, main_v55, main_v56,
   main_cst_11, main_v57, main_v58, main_v59, main_v60]

theorem hostOps0_writes : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_writes : (hostOps0_1 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_writes : (hostOps0_2 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_writes : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_writes : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The operations before the first region leave every other buffer alone. -/
theorem keep0 (r : Ref sig .tc) (h : r ∉ written0) :
    StableHlo.after hostOps0_2 (StableHlo.after hostOps0_1 (StableHlo.after hostOps0 Wv)) (Proc.devRef .tc r) = Wv (Proc.devRef .tc r) :=
  ((StableHlo.after_of_writes_sub hostOps0_2 _ hostOps0_2_writes h).trans
    (StableHlo.after_of_writes_sub hostOps0_1 _ hostOps0_1_writes h)).trans
    (StableHlo.after_of_writes_sub hostOps0 _ hostOps0_writes h)

/-- The stretch after the first region leaves every other buffer alone. -/
theorem keep1 (r : Ref sig .tc) (h : r ∉ written1) :
    StableHlo.after hostOps1 Wv (Proc.devRef .tc r) = Wv (Proc.devRef .tc r) :=
  StableHlo.after_of_writes_sub hostOps1 _ hostOps1_writes h

/-- The stretch after the third region leaves every other buffer alone. -/
theorem keep3 (r : Ref sig .tc) (h : r ∉ written3) :
    StableHlo.after hostOps3 Wv (Proc.devRef .tc r) = Wv (Proc.devRef .tc r) :=
  StableHlo.after_of_writes_sub hostOps3 _ hostOps3_writes h

end Cert.KernelIdeal.Stretch

end
-- ==== Proof.RefLayers.lean ====
/-
  The reference's dense steps, stage by stage, as the three whole-array functions of the specification.

  Each of its three feature transforms is a host product of an array with a weight matrix: entry (r, c) is the sum over
  l of the entries' products, the function `prod`.  Each bias step adds the bias, broadcast first to one row and then
  over all rows, and (in the two hidden layers) takes the maximum with a zero array: entry (r, c) is
  max (a(r, c) + b(c)) 0, the function `biasRelu` of the aggregate and of the bias laid out as one row; the last layer
  has no maximum (`biasAdd`).
-/
import proofs.«132712_j53163105190280_1_alg».proof.Proof.RefRead
import proofs.«132712_j53163105190280_1_alg».proof.Proof.LibMatmulPlain
import proofs.«132712_j53163105190280_1_alg».proof.Proof.Spec
import Idealize.ShloMosaic.Lib.ValueLayout

noncomputable section

namespace Cert.ReferenceIdeal.Layers

open Cert.ReferenceIdeal Cert.ReferenceIdeal.Gen Cert.ReferenceIdeal.ReadP Idealize.ShloMosaic Idealize.ShloMosaic.ValueIdx

theorem plain64 : Cert.Gcn.IsPlain (M := 100000) (K := 64) (N := 64) dot_S100000x64_S64x64_S100000x64_1_0_0_1_n_n :=
  ⟨rfl, rfl, rfl, rfl, rfl, rfl⟩

theorem plain128 : Cert.Gcn.IsPlain (M := 100000) (K := 64) (N := 128) dot_S100000x64_S64x128_S100000x128_1_0_0_1_n_n :=
  ⟨rfl, rfl, rfl, rfl, rfl, rfl⟩

/-- The host's 100000 × 64 by 64 × 64 product is `prod`. -/
theorem dot64_eq (X : FVec Ideal S100000x64 .f32) (W : FVec Ideal S64x64 .f32) :
    Host.dotGeneral dot_S100000x64_S64x64_S100000x64_1_0_0_1_n_n none X W = Cert.Gcn.prod X W := by
  funext i
  obtain ⟨p, q, rfl⟩ : ∃ (p : Fin 100000) (q : Fin 64), i = ix2 p q := ⟨i 0, i 1, eq_ix2 i⟩
  exact Cert.Gcn.dotGeneral_plain_apply _ plain64 none X W p q

/-- The host's 100000 × 64 by 64 × 128 product is `prod`. -/
theorem dot128_eq (X : FVec Ideal S100000x64 .f32) (W : FVec Ideal S64x128 .f32) :
    Host.dotGeneral dot_S100000x64_S64x128_S100000x128_1_0_0_1_n_n none X W = Cert.Gcn.prod X W := by
  funext i
  obtain ⟨p, q, rfl⟩ : ∃ (p : Fin 100000) (q : Fin 128), i = ix2 p q := ⟨i 0, i 1, eq_ix2 i⟩
  exact Cert.Gcn.dotGeneral_plain_apply _ plain128 none X W p q

/-- A bias broadcast to one row and then over the rows is read, at (r, c), at c. -/
theorem bias_idx64 (r : Fin 100000) (c : Fin 64) : idx_main_v44 (idx_main_v45 (ix2 r c)) = ix1 c :=
  funext fun a => Fin.ext (by match a with | ⟨0, _⟩ => rfl)
theorem bias_idx64' (r : Fin 100000) (c : Fin 64) : idx_main_v77 (idx_main_v78 (ix2 r c)) = ix1 c :=
  funext fun a => Fin.ext (by match a with | ⟨0, _⟩ => rfl)
theorem bias_idx128 (r : Fin 100000) (c : Fin 128) : idx_main_v110 (idx_main_v111 (ix2 r c)) = ix1 c :=
  funext fun a => Fin.ext (by match a with | ⟨0, _⟩ => rfl)

section
variable (x0 : FVec Ideal S100000x64 .f32) (x1 : FVec Ideal S64x64 .f32) (x2 : FVec Ideal S64 .f32)
  (x3 : FVec Ideal S64x64 .f32) (x4 : FVec Ideal S64 .f32) (x5 : FVec Ideal S64x128 .f32) (x6 : FVec Ideal S128 .f32)
  (x7 : IVec S2x1000000 32)

/-- First layer's transform. -/
theorem transform1 : val_main_v15 (F := Ideal) x0 x1 = Cert.Gcn.prod x0 x1 := dot64_eq x0 x1

/-- First layer's bias and clamp, the bias laid out as one row. -/
theorem clamp1 (h : S64.ShapeCasts S1x64) :
    val_main_v47 (F := Ideal) x0 x1 x2 x7 = Cert.Gcn.biasRelu (val_main_v43 (F := Ideal) x0 x1 x7) (shapeCast S1x64 x2 h) := by
  funext i
  obtain ⟨r, c, rfl⟩ : ∃ (r : Fin 100000) (c : Fin 64), i = ix2 r c := ⟨i 0, i 1, eq_ix2 i⟩
  rw [val_main_v47_apply, val_main_v46_apply, val_main_v45_apply, val_main_v44_apply, val_main_call1_v0_apply,
    val_main_call1_cst_apply, bias_idx64]
  unfold Cert.Gcn.biasRelu
  rw [shapeCast_a_1a_apply]
  rfl

/-- Second layer's transform. -/
theorem transform2 : val_main_v48 (F := Ideal) x0 x1 x2 x3 x7 = Cert.Gcn.prod (val_main_v47 (F := Ideal) x0 x1 x2 x7) x3 :=
  dot64_eq _ x3

/-- Second layer's bias and clamp. -/
theorem clamp2 (h : S64.ShapeCasts S1x64) :
    val_main_v80 (F := Ideal) x0 x1 x2 x3 x4 x7 = Cert.Gcn.biasRelu (val_main_v76 (F := Ideal) x0 x1 x2 x3 x7) (shapeCast S1x64 x4 h) := by
  funext i
  obtain ⟨r, c, rfl⟩ : ∃ (r : Fin 100000) (c : Fin 64), i = ix2 r c := ⟨i 0, i 1, eq_ix2 i⟩
  rw [val_main_v80_apply, val_main_v79_apply, val_main_v78_apply, val_main_v77_apply, val_main_call2_v0_apply,
    val_main_call2_cst_apply, bias_idx64']
  unfold Cert.Gcn.biasRelu
  rw [shapeCast_a_1a_apply]
  rfl

/-- Third layer's transform. -/
theorem transform3 : val_main_v81 (F := Ideal) x0 x1 x2 x3 x4 x5 x7 = Cert.Gcn.prod (val_main_v80 (F := Ideal) x0 x1 x2 x3 x4 x7) x5 :=
  dot128_eq _ x5

/-- Third layer's bias: no clamp. -/
theorem bias3 (h : S128.ShapeCasts S1x128) :
    val_main_v112 (F := Ideal) x0 x1 x2 x3 x4 x5 x6 x7 = Cert.Gcn.biasAdd (val_main_v109 (F := Ideal) x0 x1 x2 x3 x4 x5 x7) (shapeCast S1x128 x6 h) := by
  funext i
  obtain ⟨r, c, rfl⟩ : ∃ (r : Fin 100000) (c : Fin 128), i = ix2 r c := ⟨i 0, i 1, eq_ix2 i⟩
  rw [val_main_v112_apply, val_main_v111_apply, val_main_v110_apply, bias_idx128]
  unfold Cert.Gcn.biasAdd
  rw [shapeCast_a_1a_apply]
  rfl

end

end Cert.ReferenceIdeal.Layers

end
-- ==== Proof.KernelChain.lean ====
/-
  The kernel program's result array, followed from the launch memory through its twelve segments, is the reference's
  last stage of the same eight arguments.

  At every segment boundary the buffers still to be read hold the reference's stages: the edge lists and the per-edge
  normalisation (written once, before the first region, and never again), the arguments (never written), and the
  running activation.  A product region turns an activation h into h · W, the reference's host product (both are the
  sum over the contracted index on the extended reals, where the kernel's rounding of its operands to bf16 is the
  identity); a host stretch turns it into the aggregate by the reference's own operations; a bias region adds the bias
  and clamps at zero as the reference's add and maximum do.  After the sixth region the result array is the reference's
  result.
-/
import proofs.«132712_j53163105190280_1_alg».proof.Proof.Gen.KernelIdeal.Frame
import proofs.«132712_j53163105190280_1_alg».proof.Proof.Prod0
import proofs.«132712_j53163105190280_1_alg».proof.Proof.Prod2
import proofs.«132712_j53163105190280_1_alg».proof.Proof.Prod4
import proofs.«132712_j53163105190280_1_alg».proof.Proof.Bias1
import proofs.«132712_j53163105190280_1_alg».proof.Proof.Bias3
import proofs.«132712_j53163105190280_1_alg».proof.Proof.Bias5
import proofs.«132712_j53163105190280_1_alg».proof.Proof.HostStretch
import proofs.«132712_j53163105190280_1_alg».proof.Proof.HostKeep
import proofs.«132712_j53163105190280_1_alg».proof.Proof.RefLayers

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP Cert.ReferenceIdeal.Layers

variable (m : (ℓ : Loc nD τ sig) → Buf (Elt Ideal) ℓ) (ρ : Dev nD → PrngReg) (c : Dev nD)

/-- The eight arguments as launched, at the types the reference's stages take them. -/
abbrev x0 : (⟨Cert.ReferenceIdeal.S100000x64, .f32⟩ : BufTy).Contents (Elt Ideal) := m ((c : Thread nD τ).loc main_arg0)
abbrev x1 : (⟨Cert.ReferenceIdeal.S64x64, .f32⟩ : BufTy).Contents (Elt Ideal) := m ((c : Thread nD τ).loc main_arg1)
abbrev x2 : (⟨Cert.ReferenceIdeal.S64, .f32⟩ : BufTy).Contents (Elt Ideal) := m ((c : Thread nD τ).loc main_arg2)
abbrev x3 : (⟨Cert.ReferenceIdeal.S64x64, .f32⟩ : BufTy).Contents (Elt Ideal) := m ((c : Thread nD τ).loc main_arg3)
abbrev x4 : (⟨Cert.ReferenceIdeal.S64, .f32⟩ : BufTy).Contents (Elt Ideal) := m ((c : Thread nD τ).loc main_arg4)
abbrev x5 : (⟨Cert.ReferenceIdeal.S64x128, .f32⟩ : BufTy).Contents (Elt Ideal) := m ((c : Thread nD τ).loc main_arg5)
abbrev x6 : (⟨Cert.ReferenceIdeal.S128, .f32⟩ : BufTy).Contents (Elt Ideal) := m ((c : Thread nD τ).loc main_arg6)
abbrev x7 : (⟨Cert.ReferenceIdeal.S2x1000000, .i32⟩ : BufTy).Contents (Elt Ideal) := m ((c : Thread nD τ).loc main_arg7)

/-! ## At the first region's entry -/

theorem src3 : W3 m ρ c (Proc.devRef .tc main_v3) = val_main_v3 (F := Ideal) (x7 m c) := Stretch.sources (W0 m ρ c)
theorem dst3 : W3 m ρ c (Proc.devRef .tc main_v6) = val_main_v6 (F := Ideal) (x7 m c) := Stretch.destinations (W0 m ρ c)
theorem nrm3 : W3 m ρ c (Proc.devRef .tc main_v29) = val_main_v30 (F := Ideal) (x7 m c) := Stretch.normalisation (W0 m ρ c)
/-- An argument is as launched. -/
theorem arg3 (r : Ref sig .tc) (h : r ∉ Stretch.written0) : W3 m ρ c (Proc.devRef .tc r) = m ((c : Thread nD τ).loc r) :=
  Stretch.keep0 (W0 m ρ c) r h

/-! ## After the first region (first layer's transform) -/

theorem keep4 (r : Ref sig .tc) (h : ∀ w, Pipeline.arrRef spec0 w ≠ r) : W4 m ρ c (Proc.devRef .tc r) = W3 m ρ c (Proc.devRef .tc r) :=
  W4_of_ne m ρ c r h

theorem act4 : W4 m ρ c (Proc.devRef .tc main_v30) = val_main_v15 (F := Ideal) (x0 m c) (x1 m c) := by
  rw [transform1]
  refine ((W4_arr m ρ c 2).trans (Prod0.final (V3 m ρ) c)).trans ?_
  show Cert.Gcn.prod (M := 100000) (K := 64) (N := 64) (W3 m ρ c (Proc.devRef .tc main_arg0)) (W3 m ρ c (Proc.devRef .tc main_arg1)) = _
  rw [arg3 m ρ c main_arg0 (by decide), arg3 m ρ c main_arg1 (by decide)]

/-! ## After the stretch that aggregates the first layer -/

theorem keep5 (r : Ref sig .tc) (h : r ∉ Stretch.written1) : W5 m ρ c (Proc.devRef .tc r) = W4 m ρ c (Proc.devRef .tc r) :=
  Stretch.keep1 (W4 m ρ c) r h

theorem agg5 : W5 m ρ c (Proc.devRef .tc main_v43) = val_main_v43 (F := Ideal) (x0 m c) (x1 m c) (x7 m c) :=
  Stretch.aggregate1 (W4 m ρ c) (x0 m c) (x1 m c) (x7 m c)
    ((keep4 m ρ c main_v3 (by decide)).trans (src3 m ρ c)) ((keep4 m ρ c main_v6 (by decide)).trans (dst3 m ρ c))
    ((keep4 m ρ c main_v29 (by decide)).trans (nrm3 m ρ c)) (act4 m ρ c)

theorem row5 : W5 m ρ c (Proc.devRef .tc main_v44) = shapeCast S1x64 (x2 m c) shapeCasts_S64_S1x64 := by
  refine (Stretch.biasRow1 (W4 m ρ c)).trans ?_
  rw [keep4 m ρ c main_arg2 (by decide), arg3 m ρ c main_arg2 (by decide)]

/-! ## After the second region (first layer's bias and clamp) -/

theorem keep6 (r : Ref sig .tc) (h : ∀ w, Pipeline.arrRef spec1 w ≠ r) : W6 m ρ c (Proc.devRef .tc r) = W5 m ρ c (Proc.devRef .tc r) :=
  W6_of_ne m ρ c r h

theorem act6 : W6 m ρ c (Proc.devRef .tc main_v45) = val_main_v47 (F := Ideal) (x0 m c) (x1 m c) (x2 m c) (x7 m c) := by
  rw [clamp1 (x0 m c) (x1 m c) (x2 m c) (x7 m c) shapeCasts_S64_S1x64]
  refine ((W6_arr m ρ c 2).trans (Bias1.final (V5 m ρ) c)).trans ?_
  show Cert.Gcn.biasRelu (M := 100000) (N := 64) (W5 m ρ c (Proc.devRef .tc main_v43)) (W5 m ρ c (Proc.devRef .tc main_v44)) = _
  rw [agg5 m ρ c, row5 m ρ c]

/-! ## After the third region (second layer's transform) -/

theorem keep7 (r : Ref sig .tc) (h : ∀ w, Pipeline.arrRef spec2 w ≠ r) : W7 m ρ c (Proc.devRef .tc r) = W6 m ρ c (Proc.devRef .tc r) :=
  W7_of_ne m ρ c r h

/-- A buffer written before the first region and read by every layer, or an argument, through the first three regions
    and the stretch between them. -/
theorem carried7 (r : Ref sig .tc) (h0 : ∀ w, Pipeline.arrRef spec0 w ≠ r) (h1 : r ∉ Stretch.written1)
    (h2 : ∀ w, Pipeline.arrRef spec1 w ≠ r) (h3 : ∀ w, Pipeline.arrRef spec2 w ≠ r) :
    W7 m ρ c (Proc.devRef .tc r) = W3 m ρ c (Proc.devRef .tc r) :=
  (((keep7 m ρ c r h3).trans (keep6 m ρ c r h2)).trans (keep5 m ρ c r h1)).trans (keep4 m ρ c r h0)

theorem act7 : W7 m ρ c (Proc.devRef .tc main_v46) = val_main_v48 (F := Ideal) (x0 m c) (x1 m c) (x2 m c) (x3 m c) (x7 m c) := by
  rw [transform2]
  refine ((W7_arr m ρ c 2).trans (Prod2.final (V6 m ρ) c)).trans ?_
  show Cert.Gcn.prod (M := 100000) (K := 64) (N := 64) (W6 m ρ c (Proc.devRef .tc main_v45)) (W6 m ρ c (Proc.devRef .tc main_arg3)) = _
  rw [act6 m ρ c, keep6 m ρ c main_arg3 (by decide), keep5 m ρ c main_arg3 (by decide), keep4 m ρ c main_arg3 (by decide),
    arg3 m ρ c main_arg3 (by decide)]

/-! ## After the stretch that aggregates the second layer -/

theorem keep8 (r : Ref sig .tc) (h : r ∉ Stretch.written3) : W8 m ρ c (Proc.devRef .tc r) = W7 m ρ c (Proc.devRef .tc r) :=
  Stretch.keep3 (W7 m ρ c) r h

theorem agg8 : W8 m ρ c (Proc.devRef .tc main_v59) = val_main_v76 (F := Ideal) (x0 m c) (x1 m c) (x2 m c) (x3 m c) (x7 m c) :=
  Stretch.aggregate2 (W7 m ρ c) (x0 m c) (x1 m c) (x2 m c) (x3 m c) (x7 m c)
    ((carried7 m ρ c main_v3 (by decide) (by decide) (by decide) (by decide)).trans (src3 m ρ c))
    ((carried7 m ρ c main_v6 (by decide) (by decide) (by decide) (by decide)).trans (dst3 m ρ c))
    ((carried7 m ρ c main_v29 (by decide) (by decide) (by decide) (by decide)).trans (nrm3 m ρ c)) (act7 m ρ c)

theorem row8 : W8 m ρ c (Proc.devRef .tc main_v60) = shapeCast S1x64 (x4 m c) shapeCasts_S64_S1x64 := by
  refine (Stretch.biasRow2 (W7 m ρ c)).trans ?_
  rw [carried7 m ρ c main_arg4 (by decide) (by decide) (by decide) (by decide), arg3 m ρ c main_arg4 (by decide)]

/-! ## After the fourth region (second layer's bias and clamp) -/

theorem keep9 (r : Ref sig .tc) (h : ∀ w, Pipeline.arrRef spec3 w ≠ r) : W9 m ρ c (Proc.devRef .tc r) = W8 m ρ c (Proc.devRef .tc r) :=
  W9_of_ne m ρ c r h

theorem act9 : W9 m ρ c (Proc.devRef .tc main_v61) = val_main_v80 (F := Ideal) (x0 m c) (x1 m c) (x2 m c) (x3 m c) (x4 m c) (x7 m c) := by
  rw [clamp2 (x0 m c) (x1 m c) (x2 m c) (x3 m c) (x4 m c) (x7 m c) shapeCasts_S64_S1x64]
  refine ((W9_arr m ρ c 2).trans (Bias3.final (V8 m ρ) c)).trans ?_
  show Cert.Gcn.biasRelu (M := 100000) (N := 64) (W8 m ρ c (Proc.devRef .tc main_v59)) (W8 m ρ c (Proc.devRef .tc main_v60)) = _
  rw [agg8 m ρ c, row8 m ρ c]

/-! ## After the fifth region (third layer's transform) -/

theorem keep10 (r : Ref sig .tc) (h : ∀ w, Pipeline.arrRef spec4 w ≠ r) : W10 m ρ c (Proc.devRef .tc r) = W9 m ρ c (Proc.devRef .tc r) :=
  W10_of_ne m ρ c r h

/-- The same through the fourth and fifth regions and the stretch before them. -/
theorem carried10 (r : Ref sig .tc) (h0 : ∀ w, Pipeline.arrRef spec0 w ≠ r) (h1 : r ∉ Stretch.written1)
    (h2 : ∀ w, Pipeline.arrRef spec1 w ≠ r) (h3 : ∀ w, Pipeline.arrRef spec2 w ≠ r) (h4 : r ∉ Stretch.written3)
    (h5 : ∀ w, Pipeline.arrRef spec3 w ≠ r) (h6 : ∀ w, Pipeline.arrRef spec4 w ≠ r) :
    W10 m ρ c (Proc.devRef .tc r) = W3 m ρ c (Proc.devRef .tc r) :=
  (((keep10 m ρ c r h6).trans (keep9 m ρ c r h5)).trans (keep8 m ρ c r h4)).trans (carried7 m ρ c r h0 h1 h2 h3)

theorem act10 : W10 m ρ c (Proc.devRef .tc main_v62) = val_main_v81 (F := Ideal) (x0 m c) (x1 m c) (x2 m c) (x3 m c) (x4 m c) (x5 m c) (x7 m c) := by
  rw [transform3]
  refine ((W10_arr m ρ c 2).trans (Prod4.final (V9 m ρ) c)).trans ?_
  show Cert.Gcn.prod (M := 100000) (K := 64) (N := 128) (W9 m ρ c (Proc.devRef .tc main_v61)) (W9 m ρ c (Proc.devRef .tc main_arg5)) = _
  rw [act9 m ρ c, keep9 m ρ c main_arg5 (by decide), keep8 m ρ c main_arg5 (by decide),
    carried7 m ρ c main_arg5 (by decide) (by decide) (by decide) (by decide), arg3 m ρ c main_arg5 (by decide)]

/-! ## After the stretch that aggregates the third layer -/

theorem agg11 : W11 m ρ c (Proc.devRef .tc main_v75) = val_main_v109 (F := Ideal) (x0 m c) (x1 m c) (x2 m c) (x3 m c) (x4 m c) (x5 m c) (x7 m c) :=
  Stretch.aggregate3 (W10 m ρ c) (x0 m c) (x1 m c) (x2 m c) (x3 m c) (x4 m c) (x5 m c) (x7 m c)
    ((carried10 m ρ c main_v3 (by decide) (by decide) (by decide) (by decide) (by decide) (by decide) (by decide)).trans (src3 m ρ c))
    ((carried10 m ρ c main_v6 (by decide) (by decide) (by decide) (by decide) (by decide) (by decide) (by decide)).trans (dst3 m ρ c))
    ((carried10 m ρ c main_v29 (by decide) (by decide) (by decide) (by decide) (by decide) (by decide) (by decide)).trans (nrm3 m ρ c))
    (act10 m ρ c)

theorem row11 : W11 m ρ c (Proc.devRef .tc main_v76) = shapeCast S1x128 (x6 m c) shapeCasts_S128_S1x128 := by
  refine (Stretch.biasRow3 (W10 m ρ c)).trans ?_
  rw [carried10 m ρ c main_arg6 (by decide) (by decide) (by decide) (by decide) (by decide) (by decide) (by decide),
    arg3 m ρ c main_arg6 (by decide)]

/-! ## After the sixth region (third layer's bias): the result -/

/-- The result array after the last region is the reference's last stage of the eight arguments. -/
theorem result : W12 m ρ c (Proc.devRef .tc main_v77) = val_main_v112 (F := Ideal) (x0 m c) (x1 m c) (x2 m c) (x3 m c) (x4 m c) (x5 m c) (x6 m c) (x7 m c) := by
  rw [bias3 (x0 m c) (x1 m c) (x2 m c) (x3 m c) (x4 m c) (x5 m c) (x6 m c) (x7 m c) shapeCasts_S128_S1x128]
  refine ((W12_arr m ρ c 2).trans (Bias5.final (V11 m ρ) c)).trans ?_
  show Cert.Gcn.biasAdd (M := 100000) (N := 128) (W11 m ρ c (Proc.devRef .tc main_v75)) (W11 m ρ c (Proc.devRef .tc main_v76)) = _
  rw [agg11 m ρ c, row11 m ρ c]

end Cert.KernelIdeal.Chain

end
-- ==== Proof.lean ====
/-
  A three-layer graph convolution: each layer multiplies the activation by a weight matrix, sends every edge's
  source row, scaled by the edge's normalisation, to its destination row and sums there (self loops added), adds a bias
  and (in the two hidden layers) clamps at zero.  The kernel program does the three products and the three bias steps
  in six tiled regions, twenty blocks of 5000 rows each, and the gathers, the scaling and the sums in host operations
  between them; the reference does everything in host operations.

  On the extended reals the two programs compute one function of the eight arguments.  The edge lists, the degrees and
  the normalisation are the same operations of the edge index in both.  A tiled product of blocks rounded to bf16 (the
  identity on extended reals) into a zero accumulator is, entry by entry, the sum over the contracted index, as the
  host's product is; the twenty row blocks tile the rows, so the region leaves the whole product.  A tiled
  max (a + b) 0 with the bias as one row is the host's add of the broadcast bias followed by the maximum with a zero
  array.  No law of arithmetic beyond these readings is used, so the inputs' finiteness is never opened.

  The three frames are the generated ones (the reference's is its run with the result dropped); nothing was rewritten
  by the idealisation, so `preserves` has nothing to state.
-/
import proofs.«132712_j53163105190280_1_alg».proof.Defs
import proofs.«132712_j53163105190280_1_alg».proof.Proof.Gen.Kernel
import proofs.«132712_j53163105190280_1_alg».proof.Proof.Gen.Kernel.Skeleton
import proofs.«132712_j53163105190280_1_alg».proof.Proof.Gen.Kernel.Launch
import proofs.«132712_j53163105190280_1_alg».proof.Proof.Gen.Kernel.Points
import proofs.«132712_j53163105190280_1_alg».proof.Proof.Gen.Kernel.Frame
import proofs.«132712_j53163105190280_1_alg».proof.Proof.Gen.KernelIdeal
import proofs.«132712_j53163105190280_1_alg».proof.Proof.Gen.KernelIdeal.Skeleton
import proofs.«132712_j53163105190280_1_alg».proof.Proof.Gen.KernelIdeal.Launch
import proofs.«132712_j53163105190280_1_alg».proof.Proof.Gen.KernelIdeal.Points
import proofs.«132712_j53163105190280_1_alg».proof.Proof.Gen.KernelIdeal.Frame
import proofs.«132712_j53163105190280_1_alg».proof.Proof.Gen.ReferenceIdeal
import proofs.«132712_j53163105190280_1_alg».proof.Proof.Gen.Pre_finite_inputs
import proofs.«132712_j53163105190280_1_alg».proof.Proof.KernelRun
import proofs.«132712_j53163105190280_1_alg».proof.Proof.KernelChain
import proofs.«132712_j53163105190280_1_alg».proof.Proof.RefRead
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the eight arguments both programs end with the result array at the reference's last
    stage of those arguments: the kernel's by following its twelve segments, the reference's by its run. -/
theorem algebraic : Cert.algebraic_KernelIdeal_ReferenceIdeal := by
  intro m ρ m' ρ' _ hagree
  refine ⟨fun c => Cert.ReferenceIdeal.ReadP.val_main_v112 (F := Ideal) (Cert.KernelIdeal.Chain.x0 m c) (Cert.KernelIdeal.Chain.x1 m c) (Cert.KernelIdeal.Chain.x2 m c) (Cert.KernelIdeal.Chain.x3 m c) (Cert.KernelIdeal.Chain.x4 m c) (Cert.KernelIdeal.Chain.x5 m c) (Cert.KernelIdeal.Chain.x6 m c) (Cert.KernelIdeal.Chain.x7 m c), ?_, ?_⟩
  · exact (θ_run Cert.KernelIdeal.defs _ _).mono
      (fun r h c => ⟨(h c).1.trans (Cert.KernelIdeal.Chain.result m ρ c), (h c).2⟩)
      (Cert.KernelIdeal.RunRead.run (F := Ideal) m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7⟩ := hagree c
    rw [Cert.ReferenceIdeal.ReadP.val_main_v112_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
